-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x1024 .f32) (main_arg8 : FVec F S1024 .f32) (main_arg9 : FVec F S2048x1024 .f32) (main_arg10 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x1024 .f32) (main_arg2 : FVec F S8192x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S8192x1024 : Shape := ⟨2, ![8192, 1024]⟩
abbrev S2048x1024 : Shape := ⟨2, ![2048, 1024]⟩
abbrev S1024 : Shape := ⟨1, ![1024]⟩
abbrev S1x1024 : Shape := ⟨2, ![1, 1024]⟩
abbrev S256x1024 : Shape := ⟨2, ![256, 1024]⟩
abbrev S1024x1024 : Shape := ⟨2, ![1024, 1024]⟩

abbrev nBuf : Space → Nat
  | .hbm => 21
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S2048x1024, .bf16⟩
  | .hbm, ⟨12, _⟩ => ⟨S2048x1024, .bf16⟩
  | .hbm, ⟨13, _⟩ => ⟨S2048x1024, .bf16⟩
  | .hbm, ⟨14, _⟩ => ⟨S2048x1024, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S8192x1024, .f32⟩
  | .hbm, ⟨20, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x1024, .bf16⟩
  | .local _ .vmem, ⟨7, _⟩ => ⟨S1x1024, .f32⟩
  | .local _ .vmem, ⟨8, _⟩ => ⟨S2048x1024, .bf16⟩
  | .local _ .vmem, ⟨9, _⟩ => ⟨S1x1024, .f32⟩
  | .local _ .vmem, ⟨10, _⟩ => ⟨S2048x1024, .bf16⟩
  | .local _ .vmem, ⟨11, _⟩ => ⟨S1x1024, .f32⟩
  | .local _ .vmem, ⟨12, _⟩ => ⟨S2048x1024, .bf16⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S2048x1024_S1024x1024_0_0 : ∀ a, (![0, 0] : Fin 2 → Nat) a + S1024x1024.size a ≤ S2048x1024.size a
  h_S1024x1024 : 0 < S1024x1024.numel
  shapeCasts_S1024x1024_S1024x1024 : S1024x1024.ShapeCasts S1024x1024
  inb_S2048x1024_S1024x1024_1024_0 : ∀ a, (![1024, 0] : Fin 2 → Nat) a + S1024x1024.size a ≤ S2048x1024.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S2048x1024.size a
  hwx0_5 : ∀ i : grid0.Coords, EltTy.bits .bf16 = 32 ∨ (Rect.block (s := S2048x1024) S2048x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x1024.size a ≤ S2048x1024.size a
  hwx0_7 : ∀ i : grid0.Coords, EltTy.bits .bf16 = 32 ∨ (Rect.block (s := S2048x1024) S2048x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x1024.size a ≤ S2048x1024.size a
  hwx0_9 : ∀ i : grid0.Coords, EltTy.bits .bf16 = 32 ∨ (Rect.block (s := S2048x1024) S2048x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S8192x1024.size a
  hwx0_11 : ∀ i : grid0.Coords, EltTy.bits .f32 = 32 ∨ (Rect.block (s := S8192x1024) S256x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x1024.size a ≤ S8192x1024.size a
  hwx0_12 : ∀ i : grid0.Coords, EltTy.bits .f32 = 32 ∨ (Rect.block (s := S8192x1024) S256x1024.size (cc0_transform_12 i) (hinb0_12 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S2048x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S2048x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S2048x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8_0) S256x1024.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v8_1) S256x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x1024 : Shape := ⟨2, ![2048, 1024]⟩
abbrev S1024 : Shape := ⟨1, ![1024]⟩
abbrev S8192x2048 : Shape := ⟨2, ![8192, 2048]⟩
abbrev S1x1024 : Shape := ⟨2, ![1, 1024]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S8192x2048, .f32⟩
  | .hbm, ⟨12, _⟩ => ⟨S8192x1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x2048_S2048x1024_S8192x1024_1_0_0_1_n_n_wf : DotDims.WF S8192x2048 S2048x1024 S8192x1024 [1] [0] [0] [1] [] []

variable [Facts₀]

def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf

class Facts : Prop extends Facts₀ where

variable [Facts]
-- ==== Proof.BodyCell.lean ====
/-
  What the kernel body computes from the blocks it loads, read at an index of the output block.

  The body loads a 256-row block of `x`, of the previous output `h` and of the state, the four weight matrices
  whole (each as its top and bottom 1024 rows) and the four bias rows.  For each gate it forms
      (x_blk · W_top) + (h_blk · W_bot) + bias          (`gateLin`)
  — two matrix products into zero accumulators, the bias row broadcast down the 256 rows — and applies the
  logistic function (gates f, i, o) or tanh (gate c).  At the ideal instance the narrowing of `x`, `h` to bf16 is the
  identity and each matrix product at (p, q) is the plain sum `∑ k < 1024, a[p,k] · w[k,q]`.
-/
import proofs.«123881_j25829933318237_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.TcCoe ValueIdx

variable {F : FTy → Type} [FloatOps F]

/-- The affine part of one gate over a 256-row block: the block of `x` times the top half of the gate's weights,
    plus the block of `h` times the bottom half, plus the bias row broadcast to every row. -/
def gateLin (xb hb : Vec F S256x1024 .f32) (wt wb : Vec F S1024x1024 .bf16) (bb : Vec F S1x1024 .f32) :
    FVec F S256x1024 .f32 :=
  addf
    (addf
      (matmul dot_S256x1024_S1024x1024_S256x1024_1_0_0_1_n_n none (truncf .bf16 xb bitsLt_bf16_f32)
        (shapeCast S1024x1024 wt shapeCasts_S1024x1024_S1024x1024) (constant S256x1024 .f32 0x00000000#32))
      (matmul dot_S256x1024_S1024x1024_S256x1024_1_0_0_1_n_n none (truncf .bf16 hb bitsLt_bf16_f32)
        (shapeCast S1024x1024 wb shapeCasts_S1024x1024_S1024x1024) (constant S256x1024 .f32 0x00000000#32)))
    (broadcastTo S256x1024 (shapeCast S1x1024 bb shapeCasts_S1x1024_S1x1024) broadcasts_S1x1024_S256x1024)

/-! ## The body's payloads are the cell's formulas over `gateLin` (at any instance, by unfolding) -/

/-- The forget gate's value. -/
theorem forget_eq (v0 v2 : Vec F S256x1024 .f32) (v4 v6 : Vec F S1024x1024 .bf16) (v11 : Vec F S1x1024 .f32) :
    k0_pay5 v0 v2 v4 v6 v11 = logistic (gateLin v0 v2 v4 v6 v11) := rfl

/-- The input gate's value. -/
theorem input_eq (v0 v2 : Vec F S256x1024 .f32) (v16 v18 : Vec F S1024x1024 .bf16) (v23 : Vec F S1x1024 .f32) :
    k0_pay6 v0 v2 v16 v18 v23 = logistic (gateLin v0 v2 v16 v18 v23) := rfl

/-- The new state's block: `state · f + i · tanh(candidate)`. -/
theorem newState_eq (v0 v2 v52 : Vec F S256x1024 .f32) (f i : FVec F S256x1024 .f32)
    (v28 v30 : Vec F S1024x1024 .bf16) (v35 : Vec F S1x1024 .f32) :
    k0_pay1 (k0_pay4 v2) f i (k0_pay7 v30) (k0_pay8 v0 v28) (constant S256x1024 .f32 0x00000000#32) v35 v52
      = addf (mulf v52 f) (mulf i (tanh (gateLin v0 v2 v28 v30 v35))) := rfl

/-- The output's block: `o · tanh(new state)`. -/
theorem output_eq (v0 v2 v52 : Vec F S256x1024 .f32) (f i : FVec F S256x1024 .f32)
    (v28 v30 v40 v42 : Vec F S1024x1024 .bf16) (v35 v47 : Vec F S1x1024 .f32) :
    k0_pay2 (k0_pay3 v0) (k0_pay4 v2) f i (k0_pay7 v30) (k0_pay8 v0 v28) (constant S256x1024 .f32 0x00000000#32) v35 v40 v42 v47 v52
      = mulf (logistic (gateLin v0 v2 v40 v42 v47))
          (tanh (addf (mulf v52 f) (mulf i (tanh (gateLin v0 v2 v28 v30 v35))))) := rfl

/-! ## A matrix product of the body at an index -/

theorem lhs_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A [256,1024] × [1024,1024] product into the zero accumulator, at row `p` and column `q`: the sum over the
    contraction position `k` of the left factor at (p, k) times the right factor at (k, q). -/
theorem matmul_zero_apply (a : FVec Ideal S256x1024 .bf16) (w : FVec Ideal S1024x1024 .bf16) (p : Fin 256) (q : Fin 1024) :
    matmul dot_S256x1024_S1024x1024_S256x1024_1_0_0_1_n_n none a w (constant S256x1024 .f32 0x00000000#32) (ix2 p q)
      = ∑ k : Fin 1024, a (ix2 p k) * w (ix2 k q) := by
  refine (Ideal.matmul_constant_zero_apply dot_S256x1024_S1024x1024_S256x1024_1_0_0_1_n_n none a w (ix2 p q)).trans ?_
  rw [← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p q) ((ValueIdx.contrEquiv1 dot_S256x1024_S1024x1024_S256x1024_1_0_0_1_n_n 1024 rfl rfl).symm k) = ix2 p k := funext fun a => Fin.ext (by
    match a with
    | ⟨0, _⟩ => exact lhs_0 _ _
    | ⟨1, _⟩ => exact (lhs_1 _ _).trans hk)
  have er : dot_S256x1024_S1024x1024_S256x1024_1_0_0_1_n_n.rhsIdx (ix2 p q) ((ValueIdx.contrEquiv1 dot_S256x1024_S1024x1024_S256x1024_1_0_0_1_n_n 1024 rfl rfl).symm k) = ix2 k q := funext fun a => Fin.ext (by
    match a with
    | ⟨0, _⟩ => exact (rhs_0 _ _).trans hk
    | ⟨1, _⟩ => exact rhs_1 _ _)
  rw [el, er]

/-- The bias row, cast and broadcast down the block's rows, at (p, q) is the row's entry at column `q`. -/
theorem bias_apply (bb : Vec Ideal S1x1024 .f32) (p : Fin 256) (q : Fin 1024) :
    broadcastTo S256x1024 (shapeCast S1x1024 bb shapeCasts_S1x1024_S1x1024) broadcasts_S1x1024_S256x1024 (ix2 p q)
      = bb (ix2 0 q) := by
  rw [shapeCast_self]
  exact broadcastTo_apply bb broadcasts_S1x1024_S256x1024 (ix2 p q) (ix2 0 q) (fun a => match a with
    | ⟨0, _⟩ => by show 0 = if (1 : Nat) = 1 then 0 else _; rw [if_pos rfl]
    | ⟨1, _⟩ => by show q.val = if (1024 : Nat) = 1 then 0 else q.val; rw [if_neg (by decide)])

/-- The affine part of a gate at row `p`, column `q` of the block. -/
theorem gateLin_apply (xb hb : Vec Ideal S256x1024 .f32) (wt wb : Vec Ideal S1024x1024 .bf16) (bb : Vec Ideal S1x1024 .f32)
    (p : Fin 256) (q : Fin 1024) :
    gateLin (F := Ideal) xb hb wt wb bb (ix2 p q)
      = (∑ k : Fin 1024, xb (ix2 p k) * wt (ix2 k q)) + (∑ k : Fin 1024, hb (ix2 p k) * wb (ix2 k q)) + bb (ix2 0 q) := by
  unfold gateLin
  rw [shapeCast_self wt, shapeCast_self wb]
  exact congrArg₂ (· + ·) (congrArg₂ (· + ·) (matmul_zero_apply _ wt p q) (matmul_zero_apply _ wb p q)) (bias_apply bb p q)

end Cert.KernelIdeal.Body

end
-- ==== Proof.CellSpec.lean ====
/-
  The LSTM cell as ONE function of its argument arrays, index by index, on the extended reals.

  With `xh = [x | h]` the row-wise concatenation of the input and the previous output, each of the four gates
  applies a nonlinearity to the affine map `xh · W + b`.  Row `r`, column `n` of `xh · W` is
  `∑ k < 2048, xh[r,k] · W[k,n]`; the first 1024 terms read `x` against the TOP half of `W` and the last 1024
  read `h` against the BOTTOM half, so the sum is the sum of two sums over `k < 1024` (`sum_lo_hi`: only
  commutativity and associativity of `+`, which hold on the extended reals with no finiteness assumption).
  The cell is then
      new_state = state · σ(gate_f) + σ(gate_i) · tanh(gate_c),     output = σ(gate_o) · tanh(new_state),
  with `σ z = 1 / (1 + e^(-z))`, which on the extended reals IS the logistic function (`⊥ ↦ 0`, `⊤ ↦ 1`).
-/
import Idealize.ShloMosaic.PureOps.Ideal
import Idealize.ShloMosaic.PureOps.Ideal.Laws
import Idealize.ShloMosaic.Lib.ValueIdx

noncomputable section

namespace Cert.Cell

open Idealize.ShloMosaic ValueIdx

/-- Row `k` of the top half of a 2048-row weight matrix. -/
abbrev lo (k : Fin 1024) : Fin 2048 := ⟨k.val, by omega⟩
/-- Row `k` of its bottom half: row `1024 + k` of the matrix. -/
abbrev hi (k : Fin 1024) : Fin 2048 := ⟨1024 + k.val, by omega⟩

/-- A sum over the 2048 contraction positions is the sum over the top half plus the sum over the bottom half. -/
theorem sum_lo_hi {M : Type*} [AddCommMonoid M] (f : Fin 2048 → M) :
    ∑ k : Fin 2048, f k = ∑ k : Fin 1024, f (lo k) + ∑ k : Fin 1024, f (hi k) := by
  have h := Fin.sum_univ_add (M := M) (a := 1024) (b := 1024) f
  rw [h]
  rfl

/-- The affine part of one gate at row `i 0`, column `i 1`: `x` against the top half of `W`, `h` against the
    bottom half, plus the bias of the column. -/
def gate (x h : (⟨2, ![8192, 1024]⟩ : Shape).Idx → EReal) (W : (⟨2, ![2048, 1024]⟩ : Shape).Idx → EReal)
    (b : (⟨1, ![1024]⟩ : Shape).Idx → EReal) (i : (⟨2, ![8192, 1024]⟩ : Shape).Idx) : EReal :=
  (∑ k : Fin 1024, x (ix2 (i 0) k) * W (ix2 (lo k) (i 1)))
    + (∑ k : Fin 1024, h (ix2 (i 0) k) * W (ix2 (hi k) (i 1))) + b (ix1 (i 1))

/-- The new cell state: `state · σ(f) + σ(i) · tanh(c)`. -/
def newState (x h st : (⟨2, ![8192, 1024]⟩ : Shape).Idx → EReal)
    (Wf : (⟨2, ![2048, 1024]⟩ : Shape).Idx → EReal) (bf : (⟨1, ![1024]⟩ : Shape).Idx → EReal)
    (Wi : (⟨2, ![2048, 1024]⟩ : Shape).Idx → EReal) (bi : (⟨1, ![1024]⟩ : Shape).Idx → EReal)
    (Wc : (⟨2, ![2048, 1024]⟩ : Shape).Idx → EReal) (bc : (⟨1, ![1024]⟩ : Shape).Idx → EReal) :
    (⟨2, ![8192, 1024]⟩ : Shape).Idx → EReal := fun i =>
  st i * Ideal.logistic (gate x h Wf bf i) + Ideal.logistic (gate x h Wi bi i) * Ideal.tanh (gate x h Wc bc i)

/-- The cell's output: `σ(o) · tanh(new_state)`. -/
def output (x h st : (⟨2, ![8192, 1024]⟩ : Shape).Idx → EReal)
    (Wf : (⟨2, ![2048, 1024]⟩ : Shape).Idx → EReal) (bf : (⟨1, ![1024]⟩ : Shape).Idx → EReal)
    (Wi : (⟨2, ![2048, 1024]⟩ : Shape).Idx → EReal) (bi : (⟨1, ![1024]⟩ : Shape).Idx → EReal)
    (Wc : (⟨2, ![2048, 1024]⟩ : Shape).Idx → EReal) (bc : (⟨1, ![1024]⟩ : Shape).Idx → EReal)
    (Wo : (⟨2, ![2048, 1024]⟩ : Shape).Idx → EReal) (bo : (⟨1, ![1024]⟩ : Shape).Idx → EReal) :
    (⟨2, ![8192, 1024]⟩ : Shape).Idx → EReal := fun i =>
  Ideal.logistic (gate x h Wo bo i) * Ideal.tanh (newState x h st Wf bf Wi bi Wc bc i)

/-- The f32 word `0x3F800000` denotes the real number one. -/
theorem one_f32 : Ideal.ofBits .f32 0x3F800000#32 = 1 := by
  simp [Ideal.ofBits, Ideal.ieee, -EReal.coe_mul]; norm_num

/-- `1 / (1 + e^(-z))` spelt with a quotient, a sum, an exponential and a negation is the logistic function of `z`,
    at every extended real. -/
theorem sigmoid_expansion (z : EReal) : Ideal.div 1 (1 + Ideal.exp (-z)) = Ideal.logistic z := rfl

end Cert.Cell

end
-- ==== Proof.BlockValue.lean ====
/-
  What the body leaves in its two output blocks, as the LSTM cell of CellSpec read at the block's rows.

  Suppose the 256-row blocks the body loads are rows `row p` (p < 256) of the arrays `X`, `H`, `ST`, the weight
  buffers hold the whole matrices `W•` and the bias buffers the rows `B•`.  A gate's top-half weights are rows
  `k < 1024` of its matrix and its bottom half rows `1024 + k`, so the two matrix products of the body are the two
  half-sums of the cell's gate, and entry (p, q) of the body's results is the cell's new state and output at
  (row p, q).
-/
import proofs.«123881_j25829933318237_1_alg».proof.Proof.Gen.KernelIdeal.Frame
import proofs.«123881_j25829933318237_1_alg».proof.Proof.BodyCell
import proofs.«123881_j25829933318237_1_alg».proof.Proof.CellSpec

noncomputable section

namespace Cert.KernelIdeal.Body

open Cert.KernelIdeal Cert.KernelIdeal.Gen Idealize.ShloMosaic Idealize.ShloMosaic.TcCoe ValueIdx Cert.Cell

theorem hz : (![0, 0] : Fin 2 → Nat) = fun _ => 0 := funext fun a => by fin_cases a <;> rfl

/-- The top-half load of a weight buffer at (k, q) is the buffer at row `k`. -/
theorem top_apply (w : Vec Ideal S2048x1024 .bf16) (k q : Fin 1024) :
    View.ld w r0_1 (ix2 k q) = w (ix2 (lo k) q) :=
  congrArg w (funext fun a => Fin.ext (by
    match a with
    | ⟨0, _⟩ => show 0 + 1 * k.val = k.val; omega
    | ⟨1, _⟩ => show 0 + 1 * q.val = q.val; omega))

/-- The bottom-half load at (k, q) is the buffer at row `1024 + k`. -/
theorem bottom_apply (w : Vec Ideal S2048x1024 .bf16) (k q : Fin 1024) :
    View.ld w r0_2 (ix2 k q) = w (ix2 (hi k) q) :=
  congrArg w (funext fun a => Fin.ext (by
    match a with
    | ⟨0, _⟩ => show 1024 + 1 * k.val = 1024 + k.val; omega
    | ⟨1, _⟩ => show 0 + 1 * q.val = q.val; omega))

section
variable (X H ST : (⟨2, ![8192, 1024]⟩ : Shape).Idx → EReal) (row : Fin 256 → Fin 8192)
  (xb hb sb : Vec Ideal S256x1024 .f32)
  (hx : ∀ (p : Fin 256) (k : Fin 1024), xb (ix2 p k) = X (ix2 (row p) k))
  (hh : ∀ (p : Fin 256) (k : Fin 1024), hb (ix2 p k) = H (ix2 (row p) k))
  (hs : ∀ (p : Fin 256) (k : Fin 1024), sb (ix2 p k) = ST (ix2 (row p) k))

include hx hh in
/-- One gate of the body at (p, q) is the cell's gate at (row p, q). -/
theorem gate_block (W : (⟨2, ![2048, 1024]⟩ : Shape).Idx → EReal) (B : (⟨1, ![1024]⟩ : Shape).Idx → EReal) (w : Vec Ideal S2048x1024 .bf16) (b : Vec Ideal S1x1024 .f32)
    (hw : ∀ j, w j = W j) (hb' : ∀ q : Fin 1024, b (ix2 0 q) = B (ix1 q)) (p : Fin 256) (q : Fin 1024) :
    gateLin (F := Ideal) xb hb (View.ld w r0_1) (View.ld w r0_2) b (ix2 p q) = gate X H W B (ix2 (row p) q) := by
  rw [gateLin_apply]
  exact congrArg₂ (· + ·)
    (congrArg₂ (· + ·)
      (Finset.sum_congr rfl fun k _ => congrArg₂ (· * ·) (hx p k) ((top_apply w k q).trans (hw _)))
      (Finset.sum_congr rfl fun k _ => congrArg₂ (· * ·) (hh p k) ((bottom_apply w k q).trans (hw _))))
    (hb' q)

include hx hh hs in
/-- Entry (p, q) of the block the body stores as the new state. -/
theorem newState_block (WF WI WC : (⟨2, ![2048, 1024]⟩ : Shape).Idx → EReal) (BF BI BC : (⟨1, ![1024]⟩ : Shape).Idx → EReal)
    (wf wi wc wo : Vec Ideal S2048x1024 .bf16) (bf bi bc bo : Vec Ideal S1x1024 .f32)
    (hwf : ∀ j, wf j = WF j) (hbf : ∀ q : Fin 1024, bf (ix2 0 q) = BF (ix1 q))
    (hwi : ∀ j, wi j = WI j) (hbi : ∀ q : Fin 1024, bi (ix2 0 q) = BI (ix1 q))
    (hwc : ∀ j, wc j = WC j) (hbc : ∀ q : Fin 1024, bc (ix2 0 q) = BC (ix1 q))
    (p : Fin 256) (q : Fin 1024) :
    out0_12 (F := Ideal) xb hb sb wf bf wi bi wc bc wo bo (ix2 p q)
      = newState X H ST WF BF WI BI WC BC (ix2 (row p) q) := by
  unfold out0_12
  rw [View.canon_unit_zero hz]
  simp only [View.ld_unit_zero (S := S256x1024) hz, View.ld_unit_zero (S := S1x1024) hz]
  rw [forget_eq, input_eq, newState_eq]
  show sb (ix2 p q) * Ideal.logistic (gateLin (F := Ideal) xb hb (View.ld wf r0_1) (View.ld wf r0_2) bf (ix2 p q))
      + Ideal.logistic (gateLin (F := Ideal) xb hb (View.ld wi r0_1) (View.ld wi r0_2) bi (ix2 p q))
        * Ideal.tanh (gateLin (F := Ideal) xb hb (View.ld wc r0_1) (View.ld wc r0_2) bc (ix2 p q)) = _
  rw [gate_block X H row xb hb hx hh WF BF wf bf hwf hbf, gate_block X H row xb hb hx hh WI BI wi bi hwi hbi,
    gate_block X H row xb hb hx hh WC BC wc bc hwc hbc, hs]
  rfl

include hx hh hs in
/-- Entry (p, q) of the block the body stores as the output. -/
theorem output_block (WF WI WC WO : (⟨2, ![2048, 1024]⟩ : Shape).Idx → EReal) (BF BI BC BO : (⟨1, ![1024]⟩ : Shape).Idx → EReal)
    (wf wi wc wo : Vec Ideal S2048x1024 .bf16) (bf bi bc bo : Vec Ideal S1x1024 .f32)
    (hwf : ∀ j, wf j = WF j) (hbf : ∀ q : Fin 1024, bf (ix2 0 q) = BF (ix1 q))
    (hwi : ∀ j, wi j = WI j) (hbi : ∀ q : Fin 1024, bi (ix2 0 q) = BI (ix1 q))
    (hwc : ∀ j, wc j = WC j) (hbc : ∀ q : Fin 1024, bc (ix2 0 q) = BC (ix1 q))
    (hwo : ∀ j, wo j = WO j) (hbo : ∀ q : Fin 1024, bo (ix2 0 q) = BO (ix1 q))
    (p : Fin 256) (q : Fin 1024) :
    out0_11 (F := Ideal) xb hb sb wf bf wi bi wc bc wo bo (ix2 p q)
      = output X H ST WF BF WI BI WC BC WO BO (ix2 (row p) q) := by
  unfold out0_11
  rw [View.canon_unit_zero hz]
  simp only [View.ld_unit_zero (S := S256x1024) hz, View.ld_unit_zero (S := S1x1024) hz]
  rw [forget_eq, input_eq, output_eq]
  show Ideal.logistic (gateLin (F := Ideal) xb hb (View.ld wo r0_1) (View.ld wo r0_2) bo (ix2 p q))
      * Ideal.tanh (sb (ix2 p q) * Ideal.logistic (gateLin (F := Ideal) xb hb (View.ld wf r0_1) (View.ld wf r0_2) bf (ix2 p q))
      + Ideal.logistic (gateLin (F := Ideal) xb hb (View.ld wi r0_1) (View.ld wi r0_2) bi (ix2 p q))
        * Ideal.tanh (gateLin (F := Ideal) xb hb (View.ld wc r0_1) (View.ld wc r0_2) bc (ix2 p q))) = _
  rw [gate_block X H row xb hb hx hh WF BF wf bf hwf hbf, gate_block X H row xb hb hx hh WI BI wi bi hwi hbi,
    gate_block X H row xb hb hx hh WC BC wc bc hwc hbc, gate_block X H row xb hb hx hh WO BO wo bo hwo hbo, hs]
  rfl

end

end Cert.KernelIdeal.Body

end
-- ==== Proof.CellValue.lean ====
/-
  From the blocks to the whole arrays: after the kernel's run its two result arrays hold the LSTM cell's output and
  new state of the argument arrays.

  The grid has 32 points; point `t` stages rows `256 t … 256 t + 255` of `x`, of the previous output and of the
  state, the four weight matrices and bias rows whole (the weights narrowed to bf16 and the biases reshaped to one
  row by the host beforehand — both the identity on the values at the ideal instance), and writes back rows
  `256 t … 256 t + 255` of the two results.  By BlockValue the body's results at (p, q) are the cell at
  (256 t + p, q); the 32 row blocks tile the 8192 rows, so each result array IS the cell's function.
-/
import proofs.«123881_j25829933318237_1_alg».proof.Proof.Gen.KernelIdeal.Value
import proofs.«123881_j25829933318237_1_alg».proof.Proof.BlockValue
import Idealize.ShloMosaic.Lib.StableHlo.Run
import Idealize.ShloMosaic.Lib.ValueLayout

noncomputable section

namespace Cert.KernelIdeal.CellValue

open Cert.KernelIdeal Cert.KernelIdeal.Gen Cert.KernelIdeal.Body Idealize.ShloMosaic Idealize.ShloMosaic.TcCoe Idealize.SL.Sem ValueIdx Cert.Cell
open Idealize.ShloMosaic.Pipeline (Dat)

variable (m : (ℓ : Loc nD τ sig) → Buf (Elt Ideal) ℓ) (ρ : Dev nD → PrngReg)

/-- The cell's new state of core `c`'s argument arrays as launched. -/
def newStateOf (c : Dev nD) : S8192x1024.Idx → EReal :=
  newState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The cell's output of core `c`'s argument arrays as launched. -/
def outputOf (c : Dev nD) : S8192x1024.Idx → EReal :=
  output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The printed index maps over the 32 grid points: the row-tiled windows are at block (t, 0), the resident ones at (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-- Row `p` of point `t`'s block is row `256 t + p` of the array. -/
def rowOf (t : Fin cfg0.N) (p : Fin 256) : Fin 8192 :=
  ⟨t.val * 256 + p.val, by have h : t.val < 32 := lt_of_lt_of_eq t.isLt N_0; omega⟩

/-! ## What each staged block holds -/

/-- The block of `x` at point `t`: its rows `256 t + p`. -/
theorem x_block (c : Dev nD) (t : Fin cfg0.N) (p : Fin 256) (k : Fin 1024) :
    (iblk m c 0 t : Vec Ideal S256x1024 .f32) (ix2 p k) = m ((c : Thread nD τ).loc main_arg0) (ix2 (rowOf t p) k) := by
  show V m c main_arg0 (((cfg0.win 0).blk t).view.emb (ix2 p k)) = _
  rw [V_main_arg0]
  obtain ⟨e0r, e0c, e1r, e1c, e2r, e2c, e3r, e3c, e4r, e4c, e5r, e5c, e6r, e6c, e7r, e7c, e8r, e8c, e9r, e9c, e10r, e10c, e11r, e11c, e12r, e12c⟩ := idx_facts t
  refine congrArg _ (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = k.val; omega

/-- The block of the previous output at point `t`. -/
theorem h_block (c : Dev nD) (t : Fin cfg0.N) (p : Fin 256) (k : Fin 1024) :
    (iblk m c 1 t : Vec Ideal S256x1024 .f32) (ix2 p k) = m ((c : Thread nD τ).loc main_arg1) (ix2 (rowOf t p) k) := by
  show V m c main_arg1 (((cfg0.win 1).blk t).view.emb (ix2 p k)) = _
  rw [V_main_arg1]
  obtain ⟨e0r, e0c, e1r, e1c, e2r, e2c, e3r, e3c, e4r, e4c, e5r, e5c, e6r, e6c, e7r, e7c, e8r, e8c, e9r, e9c, e10r, e10c, e11r, e11c, e12r, e12c⟩ := idx_facts t
  refine congrArg _ (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega

/-- The block of the previous state at point `t`. -/
theorem st_block (c : Dev nD) (t : Fin cfg0.N) (p : Fin 256) (k : Fin 1024) :
    (iblk m c 2 t : Vec Ideal S256x1024 .f32) (ix2 p k) = m ((c : Thread nD τ).loc main_arg2) (ix2 (rowOf t p) k) := by
  show V m c main_arg2 (((cfg0.win 2).blk t).view.emb (ix2 p k)) = _
  rw [V_main_arg2]
  obtain ⟨e0r, e0c, e1r, e1c, e2r, e2c, e3r, e3c, e4r, e4c, e5r, e5c, e6r, e6c, e7r, e7c, e8r, e8c, e9r, e9c, e10r, e10c, e11r, e11c, e12r, e12c⟩ := idx_facts t
  refine congrArg _ (funext fun a => Fin.ext ?_)
  match a with
  | ⟨0, _⟩ => show win0_2.index t (0 : Fin 2) * 256 + 1 * p.val = t.val * 256 + p.val; omega
  | ⟨1, _⟩ => show win0_2.index t (1 : Fin 2) * 1024 + 1 * k.val = k.val; omega

/-- The forget gate's weights, whole, as the host narrowed them: at the ideal instance the argument itself. -/
theorem wf_block (c : Dev nD) (t : Fin cfg0.N) (j : S2048x1024.Idx) :
    (iblk m c 3 t : Vec Ideal S2048x1024 .bf16) j = m ((c : Thread nD τ).loc main_arg3) j := by
  show V m c main_v0 (((cfg0.win 3).blk t).view.emb j) = _
  have e : (V m c main_v0 : S2048x1024.Idx → EReal) = m ((c : Thread nD τ).loc main_arg3) := by
    dsimp only [Gen.V, Gen.hostOps0]; after_results; rfl
  rw [e]
  obtain ⟨e0r, e0c, e1r, e1c, e2r, e2c, e3r, e3c, e4r, e4c, e5r, e5c, e6r, e6c, e7r, e7c, e8r, e8c, e9r, e9c, e10r, e10c, e11r, e11c, e12r, e12c⟩ := idx_facts t
  refine congrArg _ (funext fun a => Fin.ext ?_)
  match a with
  | ⟨0, _⟩ => show win0_3.index t (0 : Fin 2) * 2048 + 1 * (j 0).val = (j 0).val; omega
  | ⟨1, _⟩ => show win0_3.index t (1 : Fin 2) * 1024 + 1 * (j 1).val = (j 1).val; omega

/-- The input gate's weights. -/
theorem wi_block (c : Dev nD) (t : Fin cfg0.N) (j : S2048x1024.Idx) :
    (iblk m c 5 t : Vec Ideal S2048x1024 .bf16) j = m ((c : Thread nD τ).loc main_arg5) j := by
  show V m c main_v1 (((cfg0.win 5).blk t).view.emb j) = _
  have e : (V m c main_v1 : S2048x1024.Idx → EReal) = m ((c : Thread nD τ).loc main_arg5) := by
    dsimp only [Gen.V, Gen.hostOps0]; after_results; rfl
  rw [e]
  obtain ⟨e0r, e0c, e1r, e1c, e2r, e2c, e3r, e3c, e4r, e4c, e5r, e5c, e6r, e6c, e7r, e7c, e8r, e8c, e9r, e9c, e10r, e10c, e11r, e11c, e12r, e12c⟩ := idx_facts t
  refine congrArg _ (funext fun a => Fin.ext ?_)
  match a with
  | ⟨0, _⟩ => show win0_5.index t (0 : Fin 2) * 2048 + 1 * (j 0).val = (j 0).val; omega
  | ⟨1, _⟩ => show win0_5.index t (1 : Fin 2) * 1024 + 1 * (j 1).val = (j 1).val; omega

/-- The candidate's weights. -/
theorem wc_block (c : Dev nD) (t : Fin cfg0.N) (j : S2048x1024.Idx) :
    (iblk m c 7 t : Vec Ideal S2048x1024 .bf16) j = m ((c : Thread nD τ).loc main_arg7) j := by
  show V m c main_v2 (((cfg0.win 7).blk t).view.emb j) = _
  have e : (V m c main_v2 : S2048x1024.Idx → EReal) = m ((c : Thread nD τ).loc main_arg7) := by
    dsimp only [Gen.V, Gen.hostOps0]; after_results; rfl
  rw [e]
  obtain ⟨e0r, e0c, e1r, e1c, e2r, e2c, e3r, e3c, e4r, e4c, e5r, e5c, e6r, e6c, e7r, e7c, e8r, e8c, e9r, e9c, e10r, e10c, e11r, e11c, e12r, e12c⟩ := idx_facts t
  refine congrArg _ (funext fun a => Fin.ext ?_)
  match a with
  | ⟨0, _⟩ => show win0_7.index t (0 : Fin 2) * 2048 + 1 * (j 0).val = (j 0).val; omega
  | ⟨1, _⟩ => show win0_7.index t (1 : Fin 2) * 1024 + 1 * (j 1).val = (j 1).val; omega

/-- The output gate's weights. -/
theorem wo_block (c : Dev nD) (t : Fin cfg0.N) (j : S2048x1024.Idx) :
    (iblk m c 9 t : Vec Ideal S2048x1024 .bf16) j = m ((c : Thread nD τ).loc main_arg9) j := by
  show V m c main_v3 (((cfg0.win 9).blk t).view.emb j) = _
  have e : (V m c main_v3 : S2048x1024.Idx → EReal) = m ((c : Thread nD τ).loc main_arg9) := by
    dsimp only [Gen.V, Gen.hostOps0]; after_results; rfl
  rw [e]
  obtain ⟨e0r, e0c, e1r, e1c, e2r, e2c, e3r, e3c, e4r, e4c, e5r, e5c, e6r, e6c, e7r, e7c, e8r, e8c, e9r, e9c, e10r, e10c, e11r, e11c, e12r, e12c⟩ := idx_facts t
  refine congrArg _ (funext fun a => Fin.ext ?_)
  match a with
  | ⟨0, _⟩ => show win0_9.index t (0 : Fin 2) * 2048 + 1 * (j 0).val = (j 0).val; omega
  | ⟨1, _⟩ => show win0_9.index t (1 : Fin 2) * 1024 + 1 * (j 1).val = (j 1).val; omega

/-- The forget gate's bias as one row: column `q` is the argument's entry `q`. -/
theorem bf_block (c : Dev nD) (t : Fin cfg0.N) (q : Fin 1024) :
    (iblk m c 4 t : Vec Ideal S1x1024 .f32) (ix2 0 q) = m ((c : Thread nD τ).loc main_arg4) (ix1 q) := by
  show V m c main_v4 (((cfg0.win 4).blk t).view.emb (ix2 0 q)) = _
  have e : (V m c main_v4 : S1x1024.Idx → EReal) = shapeCast S1x1024 (m ((c : Thread nD τ).loc main_arg4)) shapeCasts_S1024_S1x1024 := by
    dsimp only [Gen.V, Gen.hostOps0]; after_results; rfl
  rw [e]
  obtain ⟨e0r, e0c, e1r, e1c, e2r, e2c, e3r, e3c, e4r, e4c, e5r, e5c, e6r, e6c, e7r, e7c, e8r, e8c, e9r, e9c, e10r, e10c, e11r, e11c, e12r, e12c⟩ := idx_facts t
  have hj : ((cfg0.win 4).blk t).view.emb (ix2 (0 : Fin 1) q) = ix2 (0 : Fin 1) q := funext fun a => Fin.ext (by
    match a with
    | ⟨0, _⟩ => show win0_4.index t (0 : Fin 2) * 1 + 1 * 0 = 0; omega
    | ⟨1, _⟩ => show win0_4.index t (1 : Fin 2) * 1024 + 1 * q.val = q.val; omega)
  rw [hj]
  exact shapeCast_a_1a_apply _ shapeCasts_S1024_S1x1024 0 q

/-- The input gate's bias row. -/
theorem bi_block (c : Dev nD) (t : Fin cfg0.N) (q : Fin 1024) :
    (iblk m c 6 t : Vec Ideal S1x1024 .f32) (ix2 0 q) = m ((c : Thread nD τ).loc main_arg6) (ix1 q) := by
  show V m c main_v5 (((cfg0.win 6).blk t).view.emb (ix2 0 q)) = _
  have e : (V m c main_v5 : S1x1024.Idx → EReal) = shapeCast S1x1024 (m ((c : Thread nD τ).loc main_arg6)) shapeCasts_S1024_S1x1024 := by
    dsimp only [Gen.V, Gen.hostOps0]; after_results; rfl
  rw [e]
  obtain ⟨e0r, e0c, e1r, e1c, e2r, e2c, e3r, e3c, e4r, e4c, e5r, e5c, e6r, e6c, e7r, e7c, e8r, e8c, e9r, e9c, e10r, e10c, e11r, e11c, e12r, e12c⟩ := idx_facts t
  have hj : ((cfg0.win 6).blk t).view.emb (ix2 (0 : Fin 1) q) = ix2 (0 : Fin 1) q := funext fun a => Fin.ext (by
    match a with
    | ⟨0, _⟩ => show win0_6.index t (0 : Fin 2) * 1 + 1 * 0 = 0; omega
    | ⟨1, _⟩ => show win0_6.index t (1 : Fin 2) * 1024 + 1 * q.val = q.val; omega)
  rw [hj]
  exact shapeCast_a_1a_apply _ shapeCasts_S1024_S1x1024 0 q

/-- The candidate's bias row. -/
theorem bc_block (c : Dev nD) (t : Fin cfg0.N) (q : Fin 1024) :
    (iblk m c 8 t : Vec Ideal S1x1024 .f32) (ix2 0 q) = m ((c : Thread nD τ).loc main_arg8) (ix1 q) := by
  show V m c main_v6 (((cfg0.win 8).blk t).view.emb (ix2 0 q)) = _
  have e : (V m c main_v6 : S1x1024.Idx → EReal) = shapeCast S1x1024 (m ((c : Thread nD τ).loc main_arg8)) shapeCasts_S1024_S1x1024 := by
    dsimp only [Gen.V, Gen.hostOps0]; after_results; rfl
  rw [e]
  obtain ⟨e0r, e0c, e1r, e1c, e2r, e2c, e3r, e3c, e4r, e4c, e5r, e5c, e6r, e6c, e7r, e7c, e8r, e8c, e9r, e9c, e10r, e10c, e11r, e11c, e12r, e12c⟩ := idx_facts t
  have hj : ((cfg0.win 8).blk t).view.emb (ix2 (0 : Fin 1) q) = ix2 (0 : Fin 1) q := funext fun a => Fin.ext (by
    match a with
    | ⟨0, _⟩ => show win0_8.index t (0 : Fin 2) * 1 + 1 * 0 = 0; omega
    | ⟨1, _⟩ => show win0_8.index t (1 : Fin 2) * 1024 + 1 * q.val = q.val; omega)
  rw [hj]
  exact shapeCast_a_1a_apply _ shapeCasts_S1024_S1x1024 0 q

/-- The output gate's bias row. -/
theorem bo_block (c : Dev nD) (t : Fin cfg0.N) (q : Fin 1024) :
    (iblk m c 10 t : Vec Ideal S1x1024 .f32) (ix2 0 q) = m ((c : Thread nD τ).loc main_arg10) (ix1 q) := by
  show V m c main_v7 (((cfg0.win 10).blk t).view.emb (ix2 0 q)) = _
  have e : (V m c main_v7 : S1x1024.Idx → EReal) = shapeCast S1x1024 (m ((c : Thread nD τ).loc main_arg10)) shapeCasts_S1024_S1x1024 := by
    dsimp only [Gen.V, Gen.hostOps0]; after_results; rfl
  rw [e]
  obtain ⟨e0r, e0c, e1r, e1c, e2r, e2c, e3r, e3c, e4r, e4c, e5r, e5c, e6r, e6c, e7r, e7c, e8r, e8c, e9r, e9c, e10r, e10c, e11r, e11c, e12r, e12c⟩ := idx_facts t
  have hj : ((cfg0.win 10).blk t).view.emb (ix2 (0 : Fin 1) q) = ix2 (0 : Fin 1) q := funext fun a => Fin.ext (by
    match a with
    | ⟨0, _⟩ => show win0_10.index t (0 : Fin 2) * 1 + 1 * 0 = 0; omega
    | ⟨1, _⟩ => show win0_10.index t (1 : Fin 2) * 1024 + 1 * q.val = q.val; omega)
  rw [hj]
  exact shapeCast_a_1a_apply _ shapeCasts_S1024_S1x1024 0 q

/-! ## What point `t` writes back -/

/-- Entry (p, q) of the new-state block the body leaves at point `t` is the cell's new state at (256 t + p, q). -/
theorem newState_point (c : Dev nD) (t : Fin cfg0.N) (p : Fin 256) (q : Fin 1024) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q) = newStateOf m c (ix2 (rowOf t p) q) :=
  newState_block (m ((c : Thread nD τ).loc main_arg0)) (m ((c : Thread nD τ).loc main_arg1)) (m ((c : Thread nD τ).loc main_arg2)) (rowOf t) (iblk m c 0 t) (iblk m c 1 t) (iblk m c 2 t)
    (x_block m c t) (h_block m c t) (st_block m c t)
    (m ((c : Thread nD τ).loc main_arg3)) (m ((c : Thread nD τ).loc main_arg5)) (m ((c : Thread nD τ).loc main_arg7)) (m ((c : Thread nD τ).loc main_arg4)) (m ((c : Thread nD τ).loc main_arg6)) (m ((c : Thread nD τ).loc main_arg8))
    (iblk m c 3 t) (iblk m c 5 t) (iblk m c 7 t) (iblk m c 9 t) (iblk m c 4 t) (iblk m c 6 t) (iblk m c 8 t) (iblk m c 10 t)
    (wf_block m c t) (bf_block m c t) (wi_block m c t) (bi_block m c t) (wc_block m c t) (bc_block m c t) p q

/-- Entry (p, q) of the output block the body leaves at point `t` is the cell's output at (256 t + p, q). -/
theorem output_point (c : Dev nD) (t : Fin cfg0.N) (p : Fin 256) (q : Fin 1024) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q) = outputOf m c (ix2 (rowOf t p) q) :=
  output_block (m ((c : Thread nD τ).loc main_arg0)) (m ((c : Thread nD τ).loc main_arg1)) (m ((c : Thread nD τ).loc main_arg2)) (rowOf t) (iblk m c 0 t) (iblk m c 1 t) (iblk m c 2 t)
    (x_block m c t) (h_block m c t) (st_block m c t)
    (m ((c : Thread nD τ).loc main_arg3)) (m ((c : Thread nD τ).loc main_arg5)) (m ((c : Thread nD τ).loc main_arg7)) (m ((c : Thread nD τ).loc main_arg9)) (m ((c : Thread nD τ).loc main_arg4)) (m ((c : Thread nD τ).loc main_arg6)) (m ((c : Thread nD τ).loc main_arg8)) (m ((c : Thread nD τ).loc main_arg10))
    (iblk m c 3 t) (iblk m c 5 t) (iblk m c 7 t) (iblk m c 9 t) (iblk m c 4 t) (iblk m c 6 t) (iblk m c 8 t) (iblk m c 10 t)
    (wf_block m c t) (bf_block m c t) (wi_block m c t) (bi_block m c t) (wc_block m c t) (bc_block m c t)
    (wo_block m c t) (bo_block m c t) p q

/-- The array index of entry (p, q) of point `t`'s block of an output window is (256 t + p, q). -/
theorem emb11 (t : Fin cfg0.N) (p : Fin 256) (q : Fin 1024) :
    ((cfg0.win 11).blk t).view.emb (ix2 p q) = ix2 (rowOf t p) q := by
  obtain ⟨e0r, e0c, e1r, e1c, e2r, e2c, e3r, e3c, e4r, e4c, e5r, e5c, e6r, e6c, e7r, e7c, e8r, e8c, e9r, e9c, e10r, e10c, e11r, e11c, e12r, e12c⟩ := idx_facts t
  refine funext fun a => Fin.ext ?_
  match a with
  | ⟨0, _⟩ => show win0_11.index t (0 : Fin 2) * 256 + 1 * p.val = t.val * 256 + p.val; omega
  | ⟨1, _⟩ => show win0_11.index t (1 : Fin 2) * 1024 + 1 * q.val = q.val; omega

theorem emb12 (t : Fin cfg0.N) (p : Fin 256) (q : Fin 1024) :
    ((cfg0.win 12).blk t).view.emb (ix2 p q) = ix2 (rowOf t p) q := by
  obtain ⟨e0r, e0c, e1r, e1c, e2r, e2c, e3r, e3c, e4r, e4c, e5r, e5c, e6r, e6c, e7r, e7c, e8r, e8c, e9r, e9c, e10r, e10c, e11r, e11c, e12r, e12c⟩ := idx_facts t
  refine funext fun a => Fin.ext ?_
  match a with
  | ⟨0, _⟩ => show win0_12.index t (0 : Fin 2) * 256 + 1 * p.val = t.val * 256 + p.val; omega
  | ⟨1, _⟩ => show win0_12.index t (1 : Fin 2) * 1024 + 1 * q.val = q.val; omega

/-- What point `t` writes back to the first result is block `t` of the cell's output. -/
theorem flushed11_eq (c : Dev nD) (t : Fin cfg0.N) :
    (dats m 0 c).flushed 11 t = ((cfg0.win 11).blk t).view.read (Elt Ideal) (outputOf m c) := by
  rw [Value.flushed11]
  funext y
  obtain ⟨p, q, rfl⟩ : ∃ (p : Fin 256) (q : Fin 1024), y = ix2 p q := ⟨y 0, y 1, eq_ix2 y⟩
  show out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q) = outputOf m c (((cfg0.win 11).blk t).view.emb (ix2 p q))
  rw [emb11]
  exact output_point m c t p q

/-- What point `t` writes back to the second result is block `t` of the cell's new state. -/
theorem flushed12_eq (c : Dev nD) (t : Fin cfg0.N) :
    (dats m 0 c).flushed 12 t = ((cfg0.win 12).blk t).view.read (Elt Ideal) (newStateOf m c) := by
  rw [Value.flushed12]
  funext y
  obtain ⟨p, q, rfl⟩ : ∃ (p : Fin 256) (q : Fin 1024), y = ix2 p q := ⟨y 0, y 1, eq_ix2 y⟩
  show out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q) = newStateOf m c (((cfg0.win 12).blk t).view.emb (ix2 p q))
  rw [emb12]
  exact newState_point m c t p q

/-! ## The blocks tile the arrays -/

/-- An index of the array is in point `t`'s block of window 11 iff each coordinate is in the block's range. -/
theorem mem_blk11 (t : Fin cfg0.N) (i : S8192x1024.Idx) :
    i ∈ ((cfg0.win 11).blk t).view.set ↔ ∀ a : Fin 2, win0_11.index t a * S256x1024.size a ≤ (i a).val ∧ (i a).val < win0_11.index t a * S256x1024.size a + S256x1024.size a := by
  show i ∈ ((View.whole main_v8_0).slice (win0_11.rect t)).set ↔ _
  rw [View.set_slice_whole, Rect.mem_set_unit]
  exact Iff.rfl

/-- The 32 blocks of 256 rows tile the 8192 rows: row `r` is in the block of point `r / 256`. -/
theorem cover11 (i : S8192x1024.Idx) : ∃ t : Fin cfg0.N, (cfg0.win 11).flush t = true ∧ i ∈ ((cfg0.win 11).blk t).view.set := by
  have hi0 : (i 0).val < 8192 := (i 0).isLt
  have hi1 : (i 1).val < 1024 := (i 1).isLt
  have hN : cfg0.N = 32 := N_0
  let t : Fin cfg0.N := ⟨(i 0).val / 256, by rw [hN]; omega⟩
  have ht : t.val = (i 0).val / 256 := rfl
  refine ⟨t, flush0_11 t, ?_⟩
  rw [mem_blk11]
  obtain ⟨e0r, e0c, e1r, e1c, e2r, e2c, e3r, e3c, e4r, e4c, e5r, e5c, e6r, e6c, e7r, e7c, e8r, e8c, e9r, e9c, e10r, e10c, e11r, e11c, e12r, e12c⟩ := idx_facts t
  intro a
  match a with
  | ⟨0, _⟩ => show win0_11.index t (0 : Fin 2) * 256 ≤ (i 0).val ∧ (i 0).val < win0_11.index t (0 : Fin 2) * 256 + 256; omega
  | ⟨1, _⟩ => show win0_11.index t (1 : Fin 2) * 1024 ≤ (i 1).val ∧ (i 1).val < win0_11.index t (1 : Fin 2) * 1024 + 1024; omega

/-- An index of the array is in point `t`'s block of window 12 iff each coordinate is in the block's range. -/
theorem mem_blk12 (t : Fin cfg0.N) (i : S8192x1024.Idx) :
    i ∈ ((cfg0.win 12).blk t).view.set ↔ ∀ a : Fin 2, win0_12.index t a * S256x1024.size a ≤ (i a).val ∧ (i a).val < win0_12.index t a * S256x1024.size a + S256x1024.size a := by
  show i ∈ ((View.whole main_v8_1).slice (win0_12.rect t)).set ↔ _
  rw [View.set_slice_whole, Rect.mem_set_unit]
  exact Iff.rfl

/-- The 32 blocks of 256 rows tile the 8192 rows: row `r` is in the block of point `r / 256`. -/
theorem cover12 (i : S8192x1024.Idx) : ∃ t : Fin cfg0.N, (cfg0.win 12).flush t = true ∧ i ∈ ((cfg0.win 12).blk t).view.set := by
  have hi0 : (i 0).val < 8192 := (i 0).isLt
  have hi1 : (i 1).val < 1024 := (i 1).isLt
  have hN : cfg0.N = 32 := N_0
  let t : Fin cfg0.N := ⟨(i 0).val / 256, by rw [hN]; omega⟩
  have ht : t.val = (i 0).val / 256 := rfl
  refine ⟨t, flush0_12 t, ?_⟩
  rw [mem_blk12]
  obtain ⟨e0r, e0c, e1r, e1c, e2r, e2c, e3r, e3c, e4r, e4c, e5r, e5c, e6r, e6c, e7r, e7c, e8r, e8c, e9r, e9c, e10r, e10c, e11r, e11c, e12r, e12c⟩ := idx_facts t
  intro a
  match a with
  | ⟨0, _⟩ => show win0_12.index t (0 : Fin 2) * 256 ≤ (i 0).val ∧ (i 0).val < win0_12.index t (0 : Fin 2) * 256 + 256; omega
  | ⟨1, _⟩ => show win0_12.index t (1 : Fin 2) * 1024 ≤ (i 1).val ∧ (i 1).val < win0_12.index t (1 : Fin 2) * 1024 + 1024; omega

/-- The first result array after the run is the cell's output. -/
theorem final11 (c : Dev nD) : (dats m 0 c).arrAt 11 cfg0.N = outputOf m c :=
  (dats m 0 c).arrAt_eq_of_cover 11 (outputOf m c) (fun t _ => flushed11_eq m c t) cover11

/-- The second result array after the run is the cell's new state. -/
theorem final12 (c : Dev nD) : (dats m 0 c).arrAt 12 cfg0.N = newStateOf m c :=
  (dats m 0 c).arrAt_eq_of_cover 12 (newStateOf m c) (fun t _ => flushed12_eq m c t) cover12

/-- The kernel's run: every weakly fair execution ends with the two results at the cell's output and new state of the
    arguments, the arguments unchanged. -/
theorem run : θ_run defs (onTc (τ := τ) (main (F := Ideal))) ⟨m, fun _ => 0, ρ⟩ fun r => ∀ c : Dev nD,
      r.2.mem ((c : Thread nD τ).loc main_v8_0) = outputOf m c
      ∧ r.2.mem ((c : Thread nD τ).loc main_v8_1) = newStateOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final11 m c), (h c).2.1.trans (final12 m c), (h c).2.2⟩)
    (Value.run_blocks m ρ)

end Cert.KernelIdeal.CellValue

end
-- ==== Proof.RefCell.lean ====
/-
  The reference program, read index by index, IS the LSTM cell of CellSpec.

  The reference first joins `x` and `h` along the columns, `xh = [x | h]` of 2048 columns, and each gate is
  `xh · W + b` with ONE 2048-term contraction.  Column `k < 1024` of `xh` is column `k` of `x`, column `1024 + k` is
  column `k` of `h`; so the contraction is the half-sum of `x` against the top rows of `W` plus the half-sum of `h`
  against the bottom rows (`CellSpec.sum_lo_hi`).  The reference spells the logistic function as
  `1 / (1 + e^(-z))` with the literal `1.0`, which on the extended reals is the logistic function itself.
-/
import proofs.«123881_j25829933318237_1_alg».proof.Proof.Gen.ReferenceIdeal.Read
import proofs.«123881_j25829933318237_1_alg».proof.Proof.CellSpec

noncomputable section

namespace Cert.ReferenceIdeal.RefCell

open Cert.ReferenceIdeal Cert.ReferenceIdeal.Gen Cert.ReferenceIdeal.Read Idealize.ShloMosaic Idealize.ShloMosaic.TcCoe ValueIdx Cert.Cell

/-- A column of the joined array in its left half is that column of `x`. -/
theorem joined_lo (x h : (⟨S8192x1024, .f32⟩ : BufTy).Contents (Elt Ideal)) (r : Fin 8192) (k : Fin 1024) :
    val_main_v0 (F := Ideal) x h (ix2 r (lo k)) = x (ix2 r k) := by
  unfold val_main_v0
  exact concatenate_pair_apply_left 1 x h concatenates_S8192x1024_S8192x1024_S8192x2048_d1 (ix2 r (lo k)) rfl (ix2 r k)
    (fun b => match b with
      | ⟨0, _⟩ => rfl
      | ⟨1, _⟩ => rfl)

/-- A column of the joined array in its right half, `1024 + k`, is column `k` of `h`. -/
theorem joined_hi (x h : (⟨S8192x1024, .f32⟩ : BufTy).Contents (Elt Ideal)) (r : Fin 8192) (k : Fin 1024) :
    val_main_v0 (F := Ideal) x h (ix2 r (hi k)) = h (ix2 r k) := by
  unfold val_main_v0
  exact concatenate_pair_apply_right 1 x h concatenates_S8192x1024_S8192x1024_S8192x2048_d1 (ix2 r (hi k)) rfl rfl (ix2 r k)
    (fun b hb => match b, hb with
      | ⟨0, _⟩, _ => rfl
      | ⟨1, _⟩, hb => absurd rfl hb)
    (by show k.val + 1024 = 1024 + k.val; omega)

/-- The 2048-term contraction of the joined array with `W` at (row, column) `i`: the two half-sums. -/
theorem contraction_apply (x h : (⟨S8192x1024, .f32⟩ : BufTy).Contents (Elt Ideal)) (W : (⟨S2048x1024, .f32⟩ : BufTy).Contents (Elt Ideal)) (i : S8192x1024.Idx) :
    val_main_v1 (F := Ideal) x h W i
      = (∑ k : Fin 1024, x (ix2 (i 0) k) * W (ix2 (lo k) (i 1))) + (∑ k : Fin 1024, h (ix2 (i 0) k) * W (ix2 (hi k) (i 1))) := by
  rw [val_main_v1_apply, sum_lo_hi]
  have el : ∀ k : Fin 2048, lidx_main_v1 i k = ix2 (i 0) k := fun k => funext fun a => match a with
    | ⟨0, _⟩ => rfl
    | ⟨1, _⟩ => rfl
  have er : ∀ k : Fin 2048, ridx_main_v1 i k = ix2 k (i 1) := fun k => funext fun a => match a with
    | ⟨0, _⟩ => rfl
    | ⟨1, _⟩ => rfl
  refine congrArg₂ (· + ·) (Finset.sum_congr rfl fun k _ => ?_) (Finset.sum_congr rfl fun k _ => ?_)
  · rw [el, er]; exact congrArg (· * W (ix2 (lo k) (i 1))) (joined_lo x h (i 0) k)
  · rw [el, er]; exact congrArg (· * W (ix2 (hi k) (i 1))) (joined_hi x h (i 0) k)

/-- A gate's affine part in the reference is the cell's. -/
theorem affine_apply (x h : (⟨S8192x1024, .f32⟩ : BufTy).Contents (Elt Ideal)) (W : (⟨S2048x1024, .f32⟩ : BufTy).Contents (Elt Ideal)) (b : (⟨S1024, .f32⟩ : BufTy).Contents (Elt Ideal)) (i : S8192x1024.Idx) :
    val_main_v4 (F := Ideal) x h W b i = gate x h W b i := by
  rw [val_main_v4_apply, contraction_apply, val_main_v3_apply, val_main_v2_apply]
  have e : idx_main_v2 (idx_main_v3 i) = ix1 (i 1) := funext fun a => match a with
    | ⟨0, _⟩ => rfl
  rw [e]
  rfl

/-- The reference's `1 / (1 + e^(-z))` of a gate's affine part is the logistic function of it. -/
theorem sigmoid_apply (x h : (⟨S8192x1024, .f32⟩ : BufTy).Contents (Elt Ideal)) (W : (⟨S2048x1024, .f32⟩ : BufTy).Contents (Elt Ideal)) (b : (⟨S1024, .f32⟩ : BufTy).Contents (Elt Ideal)) (i : S8192x1024.Idx) :
    val_main_v10 (F := Ideal) x h W b i = Ideal.logistic (gate x h W b i) := by
  rw [val_main_v10_apply, val_main_v9_apply, val_main_cst_0_apply, val_main_v8_apply, val_main_v7_apply, val_main_cst_apply,
    val_main_v6_apply, val_main_v5_apply, affine_apply]
  show Ideal.div (Ideal.ofBits .f32 0x3F800000#32) (Ideal.ofBits .f32 0x3F800000#32 + Ideal.exp (-(gate x h W b i))) = _
  rw [one_f32, sigmoid_expansion]

/-- The candidate's tanh of its affine part. -/
theorem candidate_apply (x h : (⟨S8192x1024, .f32⟩ : BufTy).Contents (Elt Ideal)) (W : (⟨S2048x1024, .f32⟩ : BufTy).Contents (Elt Ideal)) (b : (⟨S1024, .f32⟩ : BufTy).Contents (Elt Ideal)) (i : S8192x1024.Idx) :
    val_main_v25 (F := Ideal) x h W b i = Ideal.tanh (gate x h W b i) := by
  rw [val_main_v25_apply]
  exact congrArg Ideal.tanh (affine_apply x h W b i)

/-- The reference's second result is the cell's new state. -/
theorem newState_eq (x h st : (⟨S8192x1024, .f32⟩ : BufTy).Contents (Elt Ideal)) (Wf : (⟨S2048x1024, .f32⟩ : BufTy).Contents (Elt Ideal)) (bf : (⟨S1024, .f32⟩ : BufTy).Contents (Elt Ideal)) (Wi : (⟨S2048x1024, .f32⟩ : BufTy).Contents (Elt Ideal)) (bi : (⟨S1024, .f32⟩ : BufTy).Contents (Elt Ideal)) (Wc : (⟨S2048x1024, .f32⟩ : BufTy).Contents (Elt Ideal)) (bc : (⟨S1024, .f32⟩ : BufTy).Contents (Elt Ideal)) :
    val_main_v38 (F := Ideal) x h st Wf bf Wi bi Wc bc = newState x h st Wf bf Wi bi Wc bc := by
  funext i
  rw [val_main_v38_apply, val_main_v36_apply, val_main_v37_apply, sigmoid_apply, candidate_apply]
  show st i * _ + val_main_v10 (F := Ideal) x h Wi bi i * _ = _
  rw [sigmoid_apply]
  rfl

/-- The reference's first result is the cell's output. -/
theorem output_eq (x h st : (⟨S8192x1024, .f32⟩ : BufTy).Contents (Elt Ideal)) (Wf : (⟨S2048x1024, .f32⟩ : BufTy).Contents (Elt Ideal)) (bf : (⟨S1024, .f32⟩ : BufTy).Contents (Elt Ideal)) (Wi : (⟨S2048x1024, .f32⟩ : BufTy).Contents (Elt Ideal)) (bi : (⟨S1024, .f32⟩ : BufTy).Contents (Elt Ideal)) (Wc : (⟨S2048x1024, .f32⟩ : BufTy).Contents (Elt Ideal)) (bc : (⟨S1024, .f32⟩ : BufTy).Contents (Elt Ideal))
    (Wo : (⟨S2048x1024, .f32⟩ : BufTy).Contents (Elt Ideal)) (bo : (⟨S1024, .f32⟩ : BufTy).Contents (Elt Ideal)) :
    val_main_v40 (F := Ideal) x h st Wf bf Wi bi Wc bc Wo bo = output x h st Wf bf Wi bi Wc bc Wo bo := by
  funext i
  rw [val_main_v40_apply, val_main_v39_apply, newState_eq]
  show val_main_v10 (F := Ideal) x h Wo bo i * _ = _
  rw [sigmoid_apply]
  rfl

end Cert.ReferenceIdeal.RefCell

end
-- ==== Proof.lean ====
/-
  The certificate of an LSTM cell kernel against its jnp reference.

  Both programs compute, from the input `x`, the previous output `h`, the previous state and four (weights, bias) pairs,
      new_state = state · σ(f) + σ(i) · tanh(c),      output = σ(o) · tanh(new_state),
  each gate being an affine map of the joined row `[x | h]`.  The kernel tiles the 8192 rows into 32 blocks of 256,
  keeps the weights resident, and splits each gate's 2048-term contraction into the `x` half against the top rows of
  the weights plus the `h` half against the bottom rows; the reference joins `x` and `h` and contracts once, and spells
  σ as `1 / (1 + e^(-z))`.  On the extended reals the two are one function of the arguments (CellSpec): splitting a
  finite sum needs only commutativity and associativity of `+`, the narrowing of the matrix operands to bf16 is the
  identity at the ideal instance, and `1 / (1 + e^(-z))` is the logistic function at every extended real.  So the
  precondition (finite inputs) is never opened.

  The three frames are the generated ones (the reference's is its run with the results dropped); the idealization
  rewrote nothing, so `preserves` is trivial; `algebraic` sets the kernel's run (CellValue.run: the two result arrays
  are the cell's output and new state) beside the reference's run read index by index (RefCell).
-/
import proofs.«123881_j25829933318237_1_alg».proof.Defs
import proofs.«123881_j25829933318237_1_alg».proof.Proof.Gen.Kernel
import proofs.«123881_j25829933318237_1_alg».proof.Proof.Gen.Kernel.Skeleton
import proofs.«123881_j25829933318237_1_alg».proof.Proof.Gen.Kernel.Launch
import proofs.«123881_j25829933318237_1_alg».proof.Proof.Gen.Kernel.Points
import proofs.«123881_j25829933318237_1_alg».proof.Proof.Gen.Kernel.Frame
import proofs.«123881_j25829933318237_1_alg».proof.Proof.Gen.KernelIdeal
import proofs.«123881_j25829933318237_1_alg».proof.Proof.Gen.KernelIdeal.Skeleton
import proofs.«123881_j25829933318237_1_alg».proof.Proof.Gen.KernelIdeal.Launch
import proofs.«123881_j25829933318237_1_alg».proof.Proof.Gen.KernelIdeal.Points
import proofs.«123881_j25829933318237_1_alg».proof.Proof.Gen.KernelIdeal.Frame
import proofs.«123881_j25829933318237_1_alg».proof.Proof.Gen.ReferenceIdeal
import proofs.«123881_j25829933318237_1_alg».proof.Proof.Gen.Pre_finite_inputs
import proofs.«123881_j25829933318237_1_alg».proof.Proof.Gen.KernelIdeal.Value
import proofs.«123881_j25829933318237_1_alg».proof.Proof.Gen.ReferenceIdeal.Run
import proofs.«123881_j25829933318237_1_alg».proof.Proof.Gen.ReferenceIdeal.Read
import proofs.«123881_j25829933318237_1_alg».proof.Proof.CellValue
import proofs.«123881_j25829933318237_1_alg».proof.Proof.RefCell
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments, the kernel ends with the cell's output and new state of its arguments
    (CellValue.run) and the reference with the same two functions of its own (RefCell), which are the kernel's. -/
theorem algebraic : Cert.algebraic_KernelIdeal_ReferenceIdeal := by
  intro m ρ m' ρ' _ hagree
  refine ⟨fun c => Cert.KernelIdeal.CellValue.outputOf m c, fun c => Cert.KernelIdeal.CellValue.newStateOf m c,
    Cert.KernelIdeal.CellValue.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8, a9, a10⟩ := hagree c
    rw [(h c).1, Cert.ReferenceIdeal.Read.val_main_v40_eq, Cert.ReferenceIdeal.RefCell.output_eq,
      a0, a1, a2, a3, a4, a5, a6, a7, a8, a9, a10]
    rfl
  · obtain ⟨a0, a1, a2, a3, a4, a5, a6, a7, a8, a9, a10⟩ := hagree c
    rw [(h c).2.1, Cert.ReferenceIdeal.Read.val_main_v38_eq, Cert.ReferenceIdeal.RefCell.newState_eq,
      a0, a1, a2, a3, a4, a5, a6, a7, a8]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
